-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S256x16 .f32) (main_arg6 : FVec F S256x16 .f32) (main_arg7 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg5
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S256x16 .f32 := Host.absf main_arg6
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x256 .f32) (main_arg3 : FVec F S128x256 .f32) (main_arg4 : FVec F S256 .f32) (main_arg5 : FVec F S256x16 .f32) (main_arg6 : FVec F S256x16 .f32) (main_arg7 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S1x16 : Shape := ⟨2, ![1, 16]⟩
abbrev S50000x16 : Shape := ⟨2, ![50000, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 61
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x16, .f32⟩
  | .hbm, ⟨6, _⟩ => ⟨S256x16, .f32⟩
  | .hbm, ⟨7, _⟩ => ⟨S16, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x256, .f32⟩
  | .hbm, ⟨52, _⟩ => ⟨S_, .f32⟩
  | .hbm, ⟨53, _⟩ => ⟨S50000x256, .f32⟩
  | .hbm, ⟨54, _⟩ => ⟨S600000x1, .i32⟩
  | .hbm, ⟨55, _⟩ => ⟨S50000x256, .f32⟩
  | .hbm, ⟨56, _⟩ => ⟨S50000x1, .f32⟩
  | .hbm, ⟨57, _⟩ => ⟨S50000x256, .f32⟩
  | .hbm, ⟨58, _⟩ => ⟨S50000x256, .f32⟩
  | .hbm, ⟨59, _⟩ => ⟨S1x16, .f32⟩
  | .hbm, ⟨60, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x16, .f32⟩
  | .local _ .vmem, ⟨14, _⟩ => ⟨S256x16, .f32⟩
  | .local _ .vmem, ⟨15, _⟩ => ⟨S1x16, .f32⟩
  | .local _ .vmem, ⟨16, _⟩ => ⟨S2000x16, .f32⟩
  | .local _ .vmem, ⟨17, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S16_S1x16 : S16.ShapeCasts S1x16
  shapeCasts_S2000x256_S2000x256 : S2000x256.ShapeCasts S2000x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x16.size a ≤ S256x16.size a
  hwx1_2 : ∀ i : grid1.Coords, EltTy.bits .f32 = 32 ∨ (Rect.block (s := S256x16) S256x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S256x16.size a
  hwx1_3 : ∀ i : grid1.Coords, EltTy.bits .f32 = 32 ∨ (Rect.block (s := S256x16) S256x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S50000x16.size a
  hwx1_5 : ∀ i : grid1.Coords, EltTy.bits .f32 = 32 ∨ (Rect.block (s := S50000x16) S2000x16.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S50000x16 : Shape := ⟨2, ![50000, 16]⟩
abbrev S1x16 : Shape := ⟨2, ![1, 16]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x16, .f32⟩
  | .hbm, ⟨6, _⟩ => ⟨S256x16, .f32⟩
  | .hbm, ⟨7, _⟩ => ⟨S16, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x256, .f32⟩
  | .hbm, ⟨56, _⟩ => ⟨S_, .f32⟩
  | .hbm, ⟨57, _⟩ => ⟨S50000x256, .f32⟩
  | .hbm, ⟨58, _⟩ => ⟨S600000x1, .i32⟩
  | .hbm, ⟨59, _⟩ => ⟨S50000x256, .f32⟩
  | .hbm, ⟨60, _⟩ => ⟨S_, .f32⟩
  | .hbm, ⟨61, _⟩ => ⟨S600000, .f32⟩
  | .hbm, ⟨62, _⟩ => ⟨S_, .f32⟩
  | .hbm, ⟨63, _⟩ => ⟨S50000, .f32⟩
  | .hbm, ⟨64, _⟩ => ⟨S600000x1, .i32⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S50000x16, .f32⟩
  | .hbm, ⟨74, _⟩ => ⟨S1x16, .f32⟩
  | .hbm, ⟨75, _⟩ => ⟨S50000x16, .f32⟩
  | .hbm, ⟨76, _⟩ => ⟨S50000x16, .f32⟩
  | .hbm, ⟨77, _⟩ => ⟨S50000x16, .f32⟩
  | .hbm, ⟨78, _⟩ => ⟨S50000x16, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000x1, .f32⟩
  | .hbm, ⟨85, _⟩ => ⟨S50000x16, .f32⟩
  | .hbm, ⟨86, _⟩ => ⟨S50000x16, .f32⟩
  | .hbm, ⟨87, _⟩ => ⟨S50000x16, .f32⟩
  | .hbm, ⟨88, _⟩ => ⟨S_, .f32⟩
  | .hbm, ⟨89, _⟩ => ⟨S50000, .f32⟩
  | .hbm, ⟨90, _⟩ => ⟨S50000x1, .f32⟩
  | .hbm, ⟨91, _⟩ => ⟨S50000x1, .f32⟩
  | .hbm, ⟨92, _⟩ => ⟨S50000x16, .f32⟩
  | .hbm, ⟨93, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call3_cst : Ref sig .tc := ⟨.hbm, 79, rfl⟩
abbrev main_call3_v0 : Ref sig .tc := ⟨.hbm, 80, rfl⟩
abbrev main_call3_cst_0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_cst_1 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_v53 : Ref sig .tc := ⟨.hbm, 93, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000x1_S50000x16_0_1 : S50000x1.BroadcastsInDim S50000x16 (![0, 1] : Fin 2 → Fin S50000x16.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x16_S50000x16_1_0_0_1_n_n_wf : DotDims.WF S50000x256 S256x16 S50000x16 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf

class Facts : Prop extends Facts₀ where

variable [Facts]
-- ==== Proof.Spec.lean ====
/-
  The shared vocabulary of this certificate: the two-layer mean-aggregation network, written once.

  Host side (whole arrays, kept opaque): for the edge list `e` (row 0 the sources, row 1 the destinations),
  `srcIx e` are the sources with a negative one wrapped by the node count, `dstIx e` the destinations, both as columns;
  `agg128 x e` / `agg256 h e` sum, into each destination's row, the rows of `x` / `h` gathered at the sources;
  `degClip e` is each node's in-degree (a sum of ones) clipped below at one; `invDeg d` is `1 / d`;
  `scale128 a v` / `scale256 a v` multiply row `r` of `a` by `v r`.

  Dense side (read index by index): `layer1` is `max (A·Wl + X·Wr + b) 0`, `layer2` the row-wise log-softmax
  of `A·Wl + H·Wr + b`, each entry a function of one row of its matrix operands.
-/
import proofs.«108324_j39238821216833_1_alg».proof.Proof.Gen.KernelIdeal
import Idealize.ShloMosaic.Lib.ValueIdx
import Idealize.ShloMosaic.PureOps.Ideal

noncomputable section

namespace Cert.Spec

open Idealize.ShloMosaic Idealize.ShloMosaic.ValueIdx Cert.KernelIdeal Cert.KernelIdeal.Facts₀

/-! ## The host side, whole arrays -/

/-- Row `a` of the edge list as a vector. -/
def edgeRow0 (e : IVec S2x600000 32) : IVec S600000 32 :=
  shapeCast _ (extractStridedSlice S1x600000 ![0, 0] e slices_S2x600000_S1x600000_0_0) shapeCasts_S1x600000_S600000
def edgeRow1 (e : IVec S2x600000 32) : IVec S600000 32 :=
  shapeCast _ (extractStridedSlice S1x600000 ![1, 0] e slices_S2x600000_S1x600000_1_0) shapeCasts_S1x600000_S600000

/-- The sources, a negative one wrapped by the node count, as a column of indices. -/
def srcIx (e : IVec S2x600000 32) : IVec S600000x1 32 :=
  broadcastInDim S600000x1 ![0] bcast_S600000_S600000x1_0
    (select (cmpi .slt (edgeRow0 e) (broadcastInDim S600000 ![] bcast_S_S600000 (constantI S_ 32 0#32)))
      (addi (edgeRow0 e) (broadcastInDim S600000 ![] bcast_S_S600000 (constantI S_ 32 50000#32))) (edgeRow0 e))

/-- The destinations as a column of indices. -/
def dstIx (e : IVec S2x600000 32) : IVec S600000x1 32 :=
  broadcastInDim S600000x1 ![0] bcast_S600000_S600000x1_0 (edgeRow1 e)

/-- Each node's sum of its in-neighbours' rows of a 128-column matrix. -/
def agg128 (x : FVec Ideal S50000x128 .f32) (e : IVec S2x600000 32) : FVec Ideal S50000x128 .f32 :=
  Host.scatterAdd scatter_S50000x128_S600000x1_S600000x128_1_0_0_1
    (broadcastInDim S50000x128 ![] bcast_S_S50000x128 (constant S_ .f32 0x00000000#32)) (dstIx e)
    (Host.gather gather_S50000x128_S600000x1_S600000x128_1_0_n_n_0_1_1128 x (srcIx e))

/-- Each node's sum of its in-neighbours' rows of a 256-column matrix. -/
def agg256 (h : FVec Ideal S50000x256 .f32) (e : IVec S2x600000 32) : FVec Ideal S50000x256 .f32 :=
  Host.scatterAdd scatter_S50000x256_S600000x1_S600000x256_1_0_0_1
    (broadcastInDim S50000x256 ![] bcast_S_S50000x256 (constant S_ .f32 0x00000000#32)) (dstIx e)
    (Host.gather gather_S50000x256_S600000x1_S600000x256_1_0_n_n_0_1_1256 h (srcIx e))

/-- Each node's in-degree: a sum of ones over its incoming edges. -/
def deg (e : IVec S2x600000 32) : FVec Ideal S50000 .f32 :=
  Host.scatterAdd scatter_S50000_S600000x1_S600000_n_0_0_1
    (broadcastInDim S50000 ![] bcast_S_S50000 (constant S_ .f32 0x00000000#32)) (dstIx e)
    (broadcastInDim S600000 ![] bcast_S_S600000 (constant S_ .f32 0x3F800000#32))

/-- A degree vector clipped below at one. -/
def clipOne (d : FVec Ideal S50000 .f32) : FVec Ideal S50000 .f32 :=
  maximumf (broadcastInDim S50000 ![] bcast_S_S50000 (constant S_ .f32 0x3F800000#32)) d

/-- The reciprocal of a vector, entry by entry, as the quotient of one by it. -/
def invDeg (d : FVec Ideal S50000 .f32) : FVec Ideal S50000 .f32 :=
  Host.divf (broadcastInDim S50000 ![] bcast_S_S50000 (constant S_ .f32 0x3F800000#32)) d

/-- A vector over the nodes laid along the 128 columns. -/
def cols128 (v : FVec Ideal S50000 .f32) : FVec Ideal S50000x128 .f32 :=
  broadcastInDim S50000x128 ![0, 1] bcast_S50000x1_S50000x128_0_1 (broadcastInDim S50000x1 ![0] bcast_S50000_S50000x1_0 v)
/-- A vector over the nodes laid along the 256 columns. -/
def cols256 (v : FVec Ideal S50000 .f32) : FVec Ideal S50000x256 .f32 :=
  broadcastInDim S50000x256 ![0, 1] bcast_S50000x1_S50000x256_0_1 (broadcastInDim S50000x1 ![0] bcast_S50000_S50000x1_0 v)

/-- Row `r` of `a` times `v r`. -/
def scale128 (a : FVec Ideal S50000x128 .f32) (v : FVec Ideal S50000 .f32) : FVec Ideal S50000x128 .f32 := mulf a (cols128 v)
def scale256 (a : FVec Ideal S50000x256 .f32) (v : FVec Ideal S50000 .f32) : FVec Ideal S50000x256 .f32 := mulf a (cols256 v)

/-- A bias vector as a one-row matrix. -/
def row256 (b : FVec Ideal S256 .f32) : FVec Ideal S1x256 .f32 := shapeCast _ b shapeCasts_S256_S1x256
def row16 (b : FVec Ideal S16 .f32) : FVec Ideal S1x16 .f32 := shapeCast _ b shapeCasts_S16_S1x16

/-! ## The dense side, index by index -/

/-- Entry (r, j) of the first layer: `max (∑ₖ A[r,k]·Wl[k,j] + ∑ₖ X[r,k]·Wr[k,j] + b[0,j]) 0`. -/
def layer1At (A X : FVec Ideal S50000x128 .f32) (Wl Wr : FVec Ideal S128x256 .f32) (b : FVec Ideal S1x256 .f32)
    (r : Fin 50000) (j : Fin 256) : EReal :=
  max (((∑ k : Fin 128, A (ix2 r k) * Wl (ix2 k j)) + ∑ k : Fin 128, X (ix2 r k) * Wr (ix2 k j)) + b (ix2 (0 : Fin 1) j))
    (Ideal.ofBits .f32 0x00000000#32)

/-- The first layer's output matrix. -/
def layer1 (A X : FVec Ideal S50000x128 .f32) (Wl Wr : FVec Ideal S128x256 .f32) (b : FVec Ideal S1x256 .f32) :
    FVec Ideal S50000x256 .f32 :=
  fun i => layer1At A X Wl Wr b (i 0) (i 1)

/-- Entry (r, j) of the second layer before the softmax: `∑ₖ A[r,k]·Wl[k,j] + ∑ₖ H[r,k]·Wr[k,j] + b[0,j]`. -/
def logitAt (A H : FVec Ideal S50000x256 .f32) (Wl Wr : FVec Ideal S256x16 .f32) (b : FVec Ideal S1x16 .f32)
    (r : Fin 50000) (j : Fin 16) : EReal :=
  ((∑ k : Fin 256, A (ix2 r k) * Wl (ix2 k j)) + ∑ k : Fin 256, H (ix2 r k) * Wr (ix2 k j)) + b (ix2 (0 : Fin 1) j)

/-- The largest of a row's 16 entries, as the fold of `max` from the float pattern of minus infinity. -/
def rowMax (z : Fin 16 → EReal) : EReal :=
  (Finset.univ : Finset (Fin 16)).fold max (Ideal.ofBits .f32 0xFF800000#32) z

/-- Entry `j` of a row's log-softmax: `(z j − max z) − log ∑ₗ exp (z l − max z)`. -/
def logSoftmaxAt (z : Fin 16 → EReal) (j : Fin 16) : EReal :=
  (z j - rowMax z) - Ideal.log (∑ l : Fin 16, Ideal.exp (z l - rowMax z))

/-- The second layer's output matrix. -/
def layer2 (A H : FVec Ideal S50000x256 .f32) (Wl Wr : FVec Ideal S256x16 .f32) (b : FVec Ideal S1x16 .f32) :
    FVec Ideal S50000x16 .f32 :=
  fun i => logSoftmaxAt (logitAt A H Wl Wr b (i 0)) (i 1)

/-! ## The whole network, as the kernel lays it out -/

/-- The hidden layer: the first dense layer of the mean-aggregated input and the input. -/
def hidden (x : FVec Ideal S50000x128 .f32) (e : IVec S2x600000 32) (W1l W1r : FVec Ideal S128x256 .f32)
    (b1 : FVec Ideal S256 .f32) : FVec Ideal S50000x256 .f32 :=
  layer1 (scale128 (agg128 x e) (invDeg (clipOne (deg e)))) x W1l W1r (row256 b1)

/-- The network's output: the second dense layer, with its log-softmax, of the mean-aggregated hidden layer and the hidden layer. -/
def output (x : FVec Ideal S50000x128 .f32) (e : IVec S2x600000 32) (W1l W1r : FVec Ideal S128x256 .f32)
    (b1 : FVec Ideal S256 .f32) (W2l W2r : FVec Ideal S256x16 .f32) (b2 : FVec Ideal S16 .f32) : FVec Ideal S50000x16 .f32 :=
  layer2 (scale256 (agg256 (hidden x e W1l W1r b1) e) (invDeg (clipOne (deg e)))) (hidden x e W1l W1r b1) W2l W2r (row16 b2)

end Cert.Spec

end
-- ==== Proof.HostReads.lean ====
/-
  What the host operations around the two regions compute, in the vocabulary of `Spec`.

  Before region 0 the host cuts the edge list into its two rows, counts each node's in-degree as a sum of ones,
  clips it at one, takes its reciprocal, sums the gathered rows of `x` into the destinations and scales row `r` by
  the reciprocal at `r`; it lays the first bias out as one row. Between the regions it does the same with the first
  region's output in the place of `x`, and lays the second bias out as one row. Everything else it leaves in place.
-/
import proofs.«108324_j39238821216833_1_alg».proof.Proof.Spec
import proofs.«108324_j39238821216833_1_alg».proof.Proof.Gen.KernelIdeal.Frame
import Idealize.ShloMosaic.Lib.StableHlo.Run

set_option maxRecDepth 16384
set_option maxHeartbeats 2000000

noncomputable section

namespace Cert.KernelIdeal.HostV

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch memory as the core's buffer contents. -/
def launch (c : Dev nD) : Valuation τ sig (Elt Ideal) := fun b => m ((c : Dev nD), b)

/-- The launch memory's argument arrays, by name. -/
abbrev ax (c : Dev nD) : FVec Ideal S50000x128 .f32 := m ((c.tc : Thread nD τ).loc main_arg0)
abbrev ae (c : Dev nD) : IVec S2x600000 32 := m ((c.tc : Thread nD τ).loc main_arg1)
abbrev aW1l (c : Dev nD) : FVec Ideal S128x256 .f32 := m ((c.tc : Thread nD τ).loc main_arg2)
abbrev aW1r (c : Dev nD) : FVec Ideal S128x256 .f32 := m ((c.tc : Thread nD τ).loc main_arg3)
abbrev ab1 (c : Dev nD) : FVec Ideal S256 .f32 := m ((c.tc : Thread nD τ).loc main_arg4)
abbrev aW2l (c : Dev nD) : FVec Ideal S256x16 .f32 := m ((c.tc : Thread nD τ).loc main_arg5)
abbrev aW2r (c : Dev nD) : FVec Ideal S256x16 .f32 := m ((c.tc : Thread nD τ).loc main_arg6)
abbrev ab2 (c : Dev nD) : FVec Ideal S16 .f32 := m ((c.tc : Thread nD τ).loc main_arg7)

/-- The reciprocal of the clipped in-degree, the factor both aggregates are scaled by. -/
abbrev rdeg (c : Dev nD) : FVec Ideal S50000 .f32 := invDeg (clipOne (deg (ae m c)))

/-- A buffer's contents after the host stretches, as a term over the launch memory: the stretches are folded
    operation by operation with the launch contents kept opaque, and what is left is the definition of the
    right-hand side. -/
local macro "read_from_launch " m:term ", " c:term : tactic =>
  `(tactic| (rw [show W0 $m _ $c = launch $m $c from rfl]
             generalize hF : launch $m $c = Fv
             after_results_simp
             subst hF
             rfl))

/-! ## At region 0's entry -/

/-- Window 0 of region 0: the aggregate of `x`, each row scaled by the reciprocal of its clipped degree. -/
theorem W3_v23 (c : Dev nD) : W3 m ρ c (Proc.devRef .tc main_v23) = scale128 (agg128 (ax m c) (ae m c)) (rdeg m c) := by
  show StableHlo.after hostOps0_2 (StableHlo.after hostOps0_1 (StableHlo.after hostOps0 (W0 m ρ c))) (Proc.devRef .tc main_v23) = _
  read_from_launch m, c

/-- Window 4 of region 0: the first bias as one row. -/
theorem W3_v24 (c : Dev nD) : W3 m ρ c (Proc.devRef .tc main_v24) = row256 (ab1 m c) := by
  show StableHlo.after hostOps0_2 (StableHlo.after hostOps0_1 (StableHlo.after hostOps0 (W0 m ρ c))) (Proc.devRef .tc main_v24) = _
  read_from_launch m, c

/-- The input `x` is as launched. -/
theorem W3_arg0 (c : Dev nD) : W3 m ρ c (Proc.devRef .tc main_arg0) = ax m c := by
  show StableHlo.after hostOps0_2 (StableHlo.after hostOps0_1 (StableHlo.after hostOps0 (W0 m ρ c))) (Proc.devRef .tc main_arg0) = _
  read_from_launch m, c

/-- The first layer's left weight is as launched. -/
theorem W3_arg2 (c : Dev nD) : W3 m ρ c (Proc.devRef .tc main_arg2) = aW1l m c := by
  show StableHlo.after hostOps0_2 (StableHlo.after hostOps0_1 (StableHlo.after hostOps0 (W0 m ρ c))) (Proc.devRef .tc main_arg2) = _
  read_from_launch m, c

/-- The first layer's right weight is as launched. -/
theorem W3_arg3 (c : Dev nD) : W3 m ρ c (Proc.devRef .tc main_arg3) = aW1r m c := by
  show StableHlo.after hostOps0_2 (StableHlo.after hostOps0_1 (StableHlo.after hostOps0 (W0 m ρ c))) (Proc.devRef .tc main_arg3) = _
  read_from_launch m, c

/-- The second layer's left weight is as launched. -/
theorem W3_arg5 (c : Dev nD) : W3 m ρ c (Proc.devRef .tc main_arg5) = aW2l m c := by
  show StableHlo.after hostOps0_2 (StableHlo.after hostOps0_1 (StableHlo.after hostOps0 (W0 m ρ c))) (Proc.devRef .tc main_arg5) = _
  read_from_launch m, c

/-- The second layer's right weight is as launched. -/
theorem W3_arg6 (c : Dev nD) : W3 m ρ c (Proc.devRef .tc main_arg6) = aW2r m c := by
  show StableHlo.after hostOps0_2 (StableHlo.after hostOps0_1 (StableHlo.after hostOps0 (W0 m ρ c))) (Proc.devRef .tc main_arg6) = _
  read_from_launch m, c

/-- The second bias is as launched. -/
theorem W3_arg7 (c : Dev nD) : W3 m ρ c (Proc.devRef .tc main_arg7) = ab2 m c := by
  show StableHlo.after hostOps0_2 (StableHlo.after hostOps0_1 (StableHlo.after hostOps0 (W0 m ρ c))) (Proc.devRef .tc main_arg7) = _
  read_from_launch m, c

/-- The sources' row of the edge list. -/
theorem W3_v1 (c : Dev nD) : W3 m ρ c (Proc.devRef .tc main_v1) = edgeRow0 (ae m c) := by
  show StableHlo.after hostOps0_2 (StableHlo.after hostOps0_1 (StableHlo.after hostOps0 (W0 m ρ c))) (Proc.devRef .tc main_v1) = _
  read_from_launch m, c

/-- The destinations' row of the edge list. -/
theorem W3_v3 (c : Dev nD) : W3 m ρ c (Proc.devRef .tc main_v3) = edgeRow1 (ae m c) := by
  show StableHlo.after hostOps0_2 (StableHlo.after hostOps0_1 (StableHlo.after hostOps0 (W0 m ρ c))) (Proc.devRef .tc main_v3) = _
  read_from_launch m, c

/-- The reciprocal of the clipped in-degree. -/
theorem W3_v10 (c : Dev nD) : W3 m ρ c (Proc.devRef .tc main_v10) = rdeg m c := by
  show StableHlo.after hostOps0_2 (StableHlo.after hostOps0_1 (StableHlo.after hostOps0 (W0 m ρ c))) (Proc.devRef .tc main_v10) = _
  read_from_launch m, c

/-! ## Between the regions: region 0 writes its output array and nothing else -/

/-- Region 0's output array holds what its write-backs leave. -/
theorem W4_v25 (c : Dev nD) : W4 m ρ c (Proc.devRef .tc main_v25) = (dat0 (V3 m ρ) c).arrAt 5 cfg0.N :=
  W4_arr m ρ c 5

theorem W4_v1 (c : Dev nD) : W4 m ρ c (Proc.devRef .tc main_v1) = edgeRow0 (ae m c) :=
  (W4_of_ne m ρ c main_v1 (by decide)).trans (W3_v1 m ρ c)
theorem W4_v3 (c : Dev nD) : W4 m ρ c (Proc.devRef .tc main_v3) = edgeRow1 (ae m c) :=
  (W4_of_ne m ρ c main_v3 (by decide)).trans (W3_v3 m ρ c)
theorem W4_v10 (c : Dev nD) : W4 m ρ c (Proc.devRef .tc main_v10) = rdeg m c :=
  (W4_of_ne m ρ c main_v10 (by decide)).trans (W3_v10 m ρ c)
theorem W4_arg5 (c : Dev nD) : W4 m ρ c (Proc.devRef .tc main_arg5) = aW2l m c :=
  (W4_of_ne m ρ c main_arg5 (by decide)).trans (W3_arg5 m ρ c)
theorem W4_arg6 (c : Dev nD) : W4 m ρ c (Proc.devRef .tc main_arg6) = aW2r m c :=
  (W4_of_ne m ρ c main_arg6 (by decide)).trans (W3_arg6 m ρ c)
theorem W4_arg7 (c : Dev nD) : W4 m ρ c (Proc.devRef .tc main_arg7) = ab2 m c :=
  (W4_of_ne m ρ c main_arg7 (by decide)).trans (W3_arg7 m ρ c)

/-! ## At region 1's entry -/

/-- Window 0 of region 1: the aggregate of region 0's output, each row scaled by the reciprocal of its clipped degree. -/
theorem W5_v38 (c : Dev nD) :
    W5 m ρ c (Proc.devRef .tc main_v38)
      = scale256 (agg256 (W4 m ρ c (Proc.devRef .tc main_v25)) (ae m c)) (rdeg m c) := by
  show StableHlo.after hostOps1 (W4 m ρ c) (Proc.devRef .tc main_v38) = _
  have h1 := W4_v1 m ρ c
  have h3 := W4_v3 m ρ c
  have h10 := W4_v10 m ρ c
  generalize W4 m ρ c = Fv at h1 h3 h10 ⊢
  after_results_simp
  rw [h1, h3, h10]
  rfl

/-- Window 1 of region 1: region 0's output array, untouched by the host in between. -/
theorem W5_v25 (c : Dev nD) : W5 m ρ c (Proc.devRef .tc main_v25) = W4 m ρ c (Proc.devRef .tc main_v25) := by
  show StableHlo.after hostOps1 (W4 m ρ c) (Proc.devRef .tc main_v25) = _
  generalize W4 m ρ c = Fv
  after_results_simp

/-- The second layer's weights are as launched. -/
theorem W5_arg5 (c : Dev nD) : W5 m ρ c (Proc.devRef .tc main_arg5) = aW2l m c := by
  show StableHlo.after hostOps1 (W4 m ρ c) (Proc.devRef .tc main_arg5) = _
  have h := W4_arg5 m ρ c
  generalize W4 m ρ c = Fv at h ⊢
  after_results_simp
  exact h
theorem W5_arg6 (c : Dev nD) : W5 m ρ c (Proc.devRef .tc main_arg6) = aW2r m c := by
  show StableHlo.after hostOps1 (W4 m ρ c) (Proc.devRef .tc main_arg6) = _
  have h := W4_arg6 m ρ c
  generalize W4 m ρ c = Fv at h ⊢
  after_results_simp
  exact h

/-- Window 4 of region 1: the second bias as one row. -/
theorem W5_v39 (c : Dev nD) : W5 m ρ c (Proc.devRef .tc main_v39) = row16 (ab2 m c) := by
  show StableHlo.after hostOps1 (W4 m ρ c) (Proc.devRef .tc main_v39) = _
  have h := W4_arg7 m ρ c
  generalize W4 m ρ c = Fv at h ⊢
  after_results_simp
  rw [h]
  rfl

end Cert.KernelIdeal.HostV

end
-- ==== Proof.Region0.lean ====
/-
  Region 0 (the first dense layer), read as one function of the arrays it finds.
  Grid point `t` stores rows 2000·t … 2000·t+1999 of the output; entry (p, q) of that block is
  `max (∑ₖ A[p,k]·Wl[k,q] + ∑ₖ X[p,k]·Wr[k,q] + b[0,q]) 0` of the point's blocks of A and X (the casts to bf16 are the
  identity on extended reals, the matrix unit's product into a zero accumulator is the plain sum of products), so the
  25 blocks together are `Spec.layer1` of the whole arrays.
-/
import proofs.«108324_j39238821216833_1_alg».proof.Proof.Spec
import proofs.«108324_j39238821216833_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product's operand indices, axis by axis

The product contracts the left operand's columns against the right operand's rows: at output entry `j` and
contraction position `k` the left operand is read at (row of `j`, `k`) and the right one at (`k`, column of `j`). -/

/-- The left operand's row is the output's row. -/
theorem lhs_row (j : S2000x256.Idx) (k : dot_S2000x128_S128x256_S2000x256_1_0_0_1_n_n.contr.Idx) :
    (dot_S2000x128_S128x256_S2000x256_1_0_0_1_n_n.lhsIdx j k 0 : ℕ) = j 0 := by
  simp [DotDims.lhsIdx, dot_S2000x128_S128x256_S2000x256_1_0_0_1_n_n]; rfl
/-- The left operand's column is the contraction position. -/
theorem lhs_col (j : S2000x256.Idx) (k : dot_S2000x128_S128x256_S2000x256_1_0_0_1_n_n.contr.Idx) :
    (dot_S2000x128_S128x256_S2000x256_1_0_0_1_n_n.lhsIdx j k 1 : ℕ) = k ⟨0, by decide⟩ :=
  dot_S2000x128_S128x256_S2000x256_1_0_0_1_n_n.lhsIdx_val_of_single rfl j k
/-- The right operand's row is the contraction position. -/
theorem rhs_row (j : S2000x256.Idx) (k : dot_S2000x128_S128x256_S2000x256_1_0_0_1_n_n.contr.Idx) :
    (dot_S2000x128_S128x256_S2000x256_1_0_0_1_n_n.rhsIdx j k 0 : ℕ) = k ⟨0, by decide⟩ :=
  dot_S2000x128_S128x256_S2000x256_1_0_0_1_n_n.rhsIdx_val_of_single rfl j k
/-- The right operand's column is the output's column. -/
theorem rhs_col (j : S2000x256.Idx) (k : dot_S2000x128_S128x256_S2000x256_1_0_0_1_n_n.contr.Idx) :
    (dot_S2000x128_S128x256_S2000x256_1_0_0_1_n_n.rhsIdx j k 1 : ℕ) = j 1 := by
  simp [DotDims.rhsIdx, dot_S2000x128_S128x256_S2000x256_1_0_0_1_n_n]; rfl

/-- The matrix unit's product into a zero accumulator, read at entry (p, q): the plain sum over the 128 contraction
    positions of the products of the entries. -/
theorem mm_apply {φ₁ φ₂ : FTy} (a : FVec Ideal S2000x128 φ₁) (b : FVec Ideal S128x256 φ₂) (p : Fin 2000) (q : Fin 256) :
    matmul dot_S2000x128_S128x256_S2000x256_1_0_0_1_n_n none a b (constant S2000x256 .f32 0x00000000#32) (ix2 p q)
      = ∑ k : Fin 128, a (ix2 p k) * b (ix2 k q) := by
  show FloatOps.matmul _ none a b _ (ix2 p q) = _
  rw [Ideal.matmul_constant_zero_apply,
    ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have hl : dot_S2000x128_S128x256_S2000x256_1_0_0_1_n_n.lhsIdx (ix2 p q)
      ((contrEquiv1 dot_S2000x128_S128x256_S2000x256_1_0_0_1_n_n 128 rfl rfl).symm k) = ix2 p k := by
    funext ax; apply Fin.ext
    match ax with
    | ⟨0, _⟩ => exact lhs_row _ _
    | ⟨1, _⟩ => exact (lhs_col _ _).trans hk
  have hr : dot_S2000x128_S128x256_S2000x256_1_0_0_1_n_n.rhsIdx (ix2 p q)
      ((contrEquiv1 dot_S2000x128_S128x256_S2000x256_1_0_0_1_n_n 128 rfl rfl).symm k) = ix2 k q := by
    funext ax; apply Fin.ext
    match ax with
    | ⟨0, _⟩ => exact (rhs_row _ _).trans hk
    | ⟨1, _⟩ => exact rhs_col _ _
  rw [hl, hr]

/-- The body's stored value at entry (p, q) of the block, from the loaded blocks. -/
theorem pay_apply (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q)
      = max (((∑ k : Fin 128, x0 (ix2 p k) * x2 (ix2 k q)) + ∑ k : Fin 128, x1 (ix2 p k) * x3 (ix2 k q)) + x4 (ix2 (0 : Fin 1) q))
          (Ideal.ofBits .f32 0x00000000#32) := by
  unfold k0_pay1
  simp only [shapeCast_self]
  rw [maximumf_apply, addf_apply, addf_apply, mm_apply, mm_apply, broadcastTo_1b_ab_apply, broadcast_apply]
  simp only [truncf_apply]
  rfl

/-! ## From the 25 blocks to the array

Point `t` reads block `t` (2000 rows) of the two row-blocked operands and the whole of the two weight matrices and of
the bias row, and writes block `t` of the output; row `r` of the output is written by point `r / 2000`. -/

theorem origin_eq : (![0, 0] : Fin 2 → Nat) = fun _ => 0 := funext fun a => by fin_cases a <;> rfl

/-- The printed index maps, decided over the 25 grid points: the row-blocked windows (0, 1 and the output's, 5) are at
    block `t` of their first axis and block 0 of their second; the weights' and the bias's windows stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of point `t`'s block of the first row-blocked operand is entry (2000·t + p, k) of its array. -/
theorem blk_rows0 (c : Dev nD) (t : Fin cfg0.N) (p : Fin 2000) (k : Fin 128) (r : Fin 50000) (hr : r.val = t.val * 2000 + p.val) :
    iblk0 V c 0 t (ix2 p k) = V c main_v23 (ix2 r k) := by
  obtain ⟨e00, e01, -⟩ := index_facts t
  show V c main_v23 (((cfg0.win 0).blk t).view.emb (ix2 p k)) = V c main_v23 (ix2 r k)
  refine congrArg (V c main_v23) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Entry (p, k) of point `t`'s block of the second row-blocked operand is entry (2000·t + p, k) of its array. -/
theorem blk_rows1 (c : Dev nD) (t : Fin cfg0.N) (p : Fin 2000) (k : Fin 128) (r : Fin 50000) (hr : r.val = t.val * 2000 + p.val) :
    iblk0 V c 1 t (ix2 p k) = V c main_arg0 (ix2 r k) := by
  obtain ⟨-, -, e10, e11, -⟩ := index_facts t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- Every point's block of the first weight matrix is the whole matrix. -/
theorem blk_wl (c : Dev nD) (t : Fin cfg0.N) (k : Fin 128) (q : Fin 256) :
    iblk0 V c 2 t (ix2 k q) = V c main_arg2 (ix2 k q) := by
  obtain ⟨-, -, -, -, e20, e21, -⟩ := index_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- Every point's block of the second weight matrix is the whole matrix. -/
theorem blk_wr (c : Dev nD) (t : Fin cfg0.N) (k : Fin 128) (q : Fin 256) :
    iblk0 V c 3 t (ix2 k q) = V c main_arg3 (ix2 k q) := by
  obtain ⟨-, -, -, -, -, -, e30, e31, -⟩ := index_facts t
  show V c main_arg3 (((cfg0.win 3).blk t).view.emb (ix2 k q)) = V c main_arg3 (ix2 k q)
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

/-- Every point's block of the bias row is the whole row. -/
theorem blk_bias (c : Dev nD) (t : Fin cfg0.N) (q : Fin 256) :
    iblk0 V c 4 t (ix2 (0 : Fin 1) q) = V c main_v24 (ix2 (0 : Fin 1) q) := by
  obtain ⟨-, -, -, -, -, -, -, -, e40, e41, -⟩ := index_facts t
  show V c main_v24 (((cfg0.win 4).blk t).view.emb (ix2 (0 : Fin 1) q)) = V c main_v24 (ix2 (0 : Fin 1) q)
  refine congrArg (V c main_v24) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 256 + 1 * q.val = q.val; omega

/-- What point `t` writes back is block `t` of the first layer of the arrays the region finds. -/
theorem flushed_eq (c : Dev nD) (t : Fin cfg0.N) :
    (dat0 (F := Ideal) V c).flushed 5 t
      = ((cfg0.win 5).blk t).view.read (Elt Ideal)
          (layer1 (V c main_v23) (V c main_arg0) (V c main_arg2) (V c main_arg3) (V c main_v24)) := by
  show (cfg0.win 5).cut (grid0.coords t) ((dat0 V c).after 5 t) = _
  rw [after0_5]
  unfold out0_5
  rw [View.canon_unit_zero origin_eq]
  simp only [View.ld_unit_zero (S := S2000x128) origin_eq, View.ld_unit_zero (S := S128x256) origin_eq,
    View.ld_unit_zero (S := S1x256) origin_eq]
  obtain ⟨-, -, -, -, -, -, -, -, -, -, e50, e51⟩ := index_facts t
  funext j
  obtain ⟨p, q, rfl⟩ : ∃ (p : Fin 2000) (q : Fin 256), j = ix2 p q := ⟨j 0, j 1, eq_ix2 j⟩
  have hr : ((((cfg0.win 5).blk t).view.emb (ix2 p q)) 0).val = t.val * 2000 + p.val := by
    show win0_5.index t (0 : Fin 2) * 2000 + 1 * p.val = _; omega
  have hq : (((cfg0.win 5).blk t).view.emb (ix2 p q)) 1 = q := by
    apply Fin.ext
    show win0_5.index t (1 : Fin 2) * 256 + 1 * q.val = _; omega
  show k0_pay1 (F := Ideal) (iblk0 V c 0 t) (iblk0 V c 1 t) (iblk0 V c 2 t) (iblk0 V c 3 t) (iblk0 V c 4 t) (ix2 p q)
    = layer1At (V c main_v23) (V c main_arg0) (V c main_arg2) (V c main_arg3) (V c main_v24)
        ((((cfg0.win 5).blk t).view.emb (ix2 p q)) 0) ((((cfg0.win 5).blk t).view.emb (ix2 p q)) 1)
  rw [hq]
  refine (pay_apply _ _ _ _ _ p q).trans ?_
  unfold layer1At
  simp only [blk_rows0 V c t p _ _ hr, blk_rows1 V c t p _ _ hr, blk_wl V c t, blk_wr V c t, blk_bias V c t]

/-- An index of the output array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v25).slice (win0_5.rect t)).set ↔ _
  rw [View.set_slice_whole, Rect.mem_set_unit]
  exact Iff.rfl

/-- The 25 blocks cover the output array: row `r` lies in the block of point `r / 2000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  have ht : t.val = (i 0).val / 2000 := rfl
  obtain ⟨-, -, -, -, -, -, -, -, -, -, e50, e51⟩ := index_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The output array after region 0, whatever contents `V` the region is entered with: the first layer of the
    arrays behind its five input windows. -/
theorem arr (c : Dev nD) :
    (dat0 (F := Ideal) V c).arrAt 5 cfg0.N
      = layer1 (V c main_v23) (V c main_arg0) (V c main_arg2) (V c main_arg3) (V c main_v24) :=
  (dat0 V c).arrAt_eq_of_cover 5 (layer1 (V c main_v23) (V c main_arg0) (V c main_arg2) (V c main_arg3) (V c main_v24))
    (fun t _ => flushed_eq V c t) cover

end Cert.KernelIdeal.Reg0

end
-- ==== Proof.Region1.lean ====
/-
  Region 1 (the second dense layer and its row-wise log-softmax), read as one function of the arrays it finds.
  Grid point `t` stores rows 2000·t … 2000·t+1999 of the output; row p of that block is the log-softmax of the 16 logits
  `∑ₖ A[p,k]·Wl[k,q] + ∑ₖ H[p,k]·Wr[k,q] + b[0,q]`: the lane maximum is the fold of `max` from minus infinity over the
  row, the lane sum the plain sum, so the 25 blocks together are `Spec.layer2` of the whole arrays.
-/
import proofs.«108324_j39238821216833_1_alg».proof.Proof.Spec
import proofs.«108324_j39238821216833_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product at an index -/

/-- The operand entries the product reads at output index j and contraction index k, axis by axis: the left operand at
    (j 0, k), the right operand at (k, j 1). -/
theorem lhs_dot_0 (j : S2000x16.Idx) (k : dot_S2000x256_S256x16_S2000x16_1_0_0_1_n_n.contr.Idx) :
    (dot_S2000x256_S256x16_S2000x16_1_0_0_1_n_n.lhsIdx j k 0).val = (j 0).val := by
  simp [DotDims.lhsIdx, dot_S2000x256_S256x16_S2000x16_1_0_0_1_n_n]; rfl

theorem lhs_dot_1 (j : S2000x16.Idx) (k : dot_S2000x256_S256x16_S2000x16_1_0_0_1_n_n.contr.Idx) :
    (dot_S2000x256_S256x16_S2000x16_1_0_0_1_n_n.lhsIdx j k 1).val = (k ⟨0, by decide⟩).val :=
  dot_S2000x256_S256x16_S2000x16_1_0_0_1_n_n.lhsIdx_val_of_single rfl j k

theorem rhs_dot_0 (j : S2000x16.Idx) (k : dot_S2000x256_S256x16_S2000x16_1_0_0_1_n_n.contr.Idx) :
    (dot_S2000x256_S256x16_S2000x16_1_0_0_1_n_n.rhsIdx j k 0).val = (k ⟨0, by decide⟩).val :=
  dot_S2000x256_S256x16_S2000x16_1_0_0_1_n_n.rhsIdx_val_of_single rfl j k

theorem rhs_dot_1 (j : S2000x16.Idx) (k : dot_S2000x256_S256x16_S2000x16_1_0_0_1_n_n.contr.Idx) :
    (dot_S2000x256_S256x16_S2000x16_1_0_0_1_n_n.rhsIdx j k 1).val = (j 1).val := by
  simp [DotDims.rhsIdx, dot_S2000x256_S256x16_S2000x16_1_0_0_1_n_n]; rfl

/-- A [2000,256] by [256,16] product into the zero block, at (p, q): the sum over the 256 contracted coordinates. -/
theorem matmul_at {φ₁ φ₂ : FTy} (A : FVec Ideal S2000x256 φ₁) (B : FVec Ideal S256x16 φ₂) (p : Fin 2000) (q : Fin 16) :
    matmul dot_S2000x256_S256x16_S2000x16_1_0_0_1_n_n none A B (constant S2000x16 .f32 0x00000000#32) (ix2 p q)
      = ∑ k : Fin 256, A (ix2 p k) * B (ix2 k q) := by
  show FloatOps.matmul dot_S2000x256_S256x16_S2000x16_1_0_0_1_n_n none A B (constant S2000x16 .f32 0x00000000#32) (ix2 p q) = _
  rw [Ideal.matmul_constant_zero_apply,
    ← Equiv.sum_comp (contrEquiv1 dot_S2000x256_S256x16_S2000x16_1_0_0_1_n_n 256 rfl rfl).symm]
  refine Finset.sum_congr rfl fun c _ => ?_
  have hc := contrEquiv1_symm_val dot_S2000x256_S256x16_S2000x16_1_0_0_1_n_n 256 rfl rfl c
  have hl : dot_S2000x256_S256x16_S2000x16_1_0_0_1_n_n.lhsIdx (ix2 p q)
      ((contrEquiv1 dot_S2000x256_S256x16_S2000x16_1_0_0_1_n_n 256 rfl rfl).symm c) = ix2 p c := by
    funext ax; apply Fin.ext
    match ax with
    | ⟨0, _⟩ => exact lhs_dot_0 _ _
    | ⟨1, _⟩ => exact (lhs_dot_1 _ _).trans hc
  have hr : dot_S2000x256_S256x16_S2000x16_1_0_0_1_n_n.rhsIdx (ix2 p q)
      ((contrEquiv1 dot_S2000x256_S256x16_S2000x16_1_0_0_1_n_n 256 rfl rfl).symm c) = ix2 c q := by
    funext ax; apply Fin.ext
    match ax with
    | ⟨0, _⟩ => exact (rhs_dot_0 _ _).trans hc
    | ⟨1, _⟩ => exact rhs_dot_1 _ _
  rw [hl, hr]

/-! ## Rows and columns of a block -/

/-- A one-row block laid along the 2000 rows, at (p, q): the row's entry q. -/
theorem row_bcast_at (w : FVec Ideal S1x16 .f32) (p : Fin 2000) (q : Fin 16) :
    broadcastTo S2000x16 w broadcasts_S1x16_S2000x16 (ix2 p q) = w (ix2 (0 : Fin 1) q) :=
  broadcastTo_apply w broadcasts_S1x16_S2000x16 (ix2 p q) (ix2 (0 : Fin 1) q) (by
    intro a
    match a with
    | ⟨0, _⟩ => rfl
    | ⟨1, _⟩ => rfl)

/-- A one-column block laid along the 16 lanes, at (p, q): the column's entry p. -/
theorem col_bcast_at (w : FVec Ideal S2000x1 .f32) (p : Fin 2000) (q : Fin 16) :
    broadcastTo S2000x16 w broadcasts_S2000x1_S2000x16 (ix2 p q) = w (ix2 p (0 : Fin 1)) :=
  broadcastTo_apply w broadcasts_S2000x1_S2000x16 (ix2 p q) (ix2 p (0 : Fin 1)) (by
    intro a
    match a with
    | ⟨0, _⟩ => rfl
    | ⟨1, _⟩ => rfl)

/-- A vector over the rows as a one-column block, at (p, 0): the vector's entry p. -/
theorem col_cast_at (v : FVec Ideal S2000 .f32) (p : Fin 2000) :
    shapeCast S2000x1 v shapeCasts_S2000_S2000x1 (ix2 p (0 : Fin 1)) = v (ix1 p) :=
  shapeCast_apply v shapeCasts_S2000_S2000x1 (ix2 p (0 : Fin 1)) (ix1 p) (by
    rw [Shape.rowMajor_val_two, Shape.rowMajor_val_one]
    show p.val = p.val * 1 + 0
    omega)

/-- The row index (p) with lane k put back on the reduced axis is (p, k). -/
theorem lift_row (p : Fin 2000) (k : Fin 16) : reduces_S2000x16_S2000.lift (ix1 p) k = ix2 p k := by
  funext c; apply Fin.ext
  match c with
  | ⟨0, _⟩ => rfl
  | ⟨1, _⟩ => rfl

/-! ## The lane reductions of a block, at a row -/

/-- The lane maximum of a block at row p: the fold of `max` from minus infinity over the row's 16 entries. -/
theorem lane_max_at (src : FVec Ideal S2000x16 .f32) (p : Fin 2000) :
    multiReduction .maximumf [1] S2000 src 0xFF800000#32 reduces_S2000x16_S2000 (.inl rfl) rfl (ix1 p)
      = rowMax (fun j : Fin 16 => src (ix2 p j)) := by
  refine (Ideal.multiReduction_maximumf_single src _ reduces_S2000x16_S2000 (.inl rfl) rfl (ix1 p)).trans ?_
  have e : (src ∘ reduces_S2000x16_S2000.lift (ix1 p)) = fun j : Fin 16 => src (ix2 p j) :=
    funext fun j => congrArg src (lift_row p j)
  exact congrArg (fun f : Fin 16 → EReal =>
    (Finset.univ : Finset (Fin 16)).fold max (Ideal.ofBits .f32 0xFF800000#32) f) e

/-- The lane sum of a block at row p: the sum of the row's 16 entries. -/
theorem lane_sum_at (src : FVec Ideal S2000x16 .f32) (p : Fin 2000) :
    multiReduction .add [1] S2000 src 0x00000000#32 reduces_S2000x16_S2000 (.inl rfl) rfl (ix1 p)
      = ∑ j : Fin 16, src (ix2 p j) := by
  refine (Ideal.multiReduction_add_single src _ reduces_S2000x16_S2000 (.inl rfl) rfl (ix1 p)).trans ?_
  exact Finset.sum_congr rfl fun j _ => congrArg src (lift_row p j)

/-- The exponential and the logarithm of a block, entry by entry. -/
theorem exp_at {s : Shape} (x : FVec Ideal s .f32) (i : s.Idx) : exp x i = Ideal.exp (x i) := rfl
theorem log_at {s : Shape} (x : FVec Ideal s .f32) (i : s.Idx) : log x i = Ideal.log (x i) := rfl

/-- A vector over the rows laid along the lanes (through its one-column form), at (p, q): its entry p. -/
theorem keep_at (v : FVec Ideal S2000 .f32) (p : Fin 2000) (q : Fin 16) :
    broadcastTo S2000x16 (shapeCast S2000x1 v shapeCasts_S2000_S2000x1) broadcasts_S2000x1_S2000x16 (ix2 p q) = v (ix1 p) :=
  (col_bcast_at _ p q).trans (col_cast_at v p)

/-! ## The softmax of a block of logits -/

/-- The block's shifted entries: each row less its lane maximum. -/
theorem shifted_at (Z : FVec Ideal S2000x16 .f32) (p : Fin 2000) (q : Fin 16) :
    subf Z (broadcastTo S2000x16 (shapeCast S2000x1
        (multiReduction .maximumf [1] S2000 Z 0xFF800000#32 reduces_S2000x16_S2000 (.inl rfl) rfl) shapeCasts_S2000_S2000x1)
        broadcasts_S2000x1_S2000x16) (ix2 p q)
      = Z (ix2 p q) - rowMax (fun j : Fin 16 => Z (ix2 p j)) := by
  rw [subf_apply, keep_at, lane_max_at]

/-- The kernel's log-softmax steps on a block of logits, at (p, q): the log-softmax of row p. -/
theorem logSoftmax_block (Z : FVec Ideal S2000x16 .f32) (p : Fin 2000) (q : Fin 16) :
    subf (subf Z (broadcastTo S2000x16 (shapeCast S2000x1
          (multiReduction .maximumf [1] S2000 Z 0xFF800000#32 reduces_S2000x16_S2000 (.inl rfl) rfl) shapeCasts_S2000_S2000x1)
          broadcasts_S2000x1_S2000x16))
      (broadcastTo S2000x16 (log (shapeCast S2000x1
          (multiReduction .add [1] S2000
            (exp (subf Z (broadcastTo S2000x16 (shapeCast S2000x1
              (multiReduction .maximumf [1] S2000 Z 0xFF800000#32 reduces_S2000x16_S2000 (.inl rfl) rfl) shapeCasts_S2000_S2000x1)
              broadcasts_S2000x1_S2000x16)))
            0x00000000#32 reduces_S2000x16_S2000 (.inl rfl) rfl) shapeCasts_S2000_S2000x1))
        broadcasts_S2000x1_S2000x16) (ix2 p q)
      = logSoftmaxAt (fun j : Fin 16 => Z (ix2 p j)) q := by
  rw [subf_apply, shifted_at, col_bcast_at, log_at, col_cast_at, lane_sum_at]
  unfold logSoftmaxAt
  refine congrArg (fun s => (Z (ix2 p q) - rowMax (fun j : Fin 16 => Z (ix2 p j))) - Ideal.log s) ?_
  exact Finset.sum_congr rfl fun l _ => by rw [exp_at, shifted_at]

/-- The block of logits at (p, j): the two products and the bias row. -/
theorem logits_at (x0 x1 : FVec Ideal S2000x256 .f32) (x2 x3 : FVec Ideal S256x16 .f32) (x4 : FVec Ideal S1x16 .f32)
    (p : Fin 2000) (j : Fin 16) :
    addf (F := Ideal) (addf (F := Ideal)
        (matmul (F := Ideal) dot_S2000x256_S256x16_S2000x16_1_0_0_1_n_n none
          (truncf .bf16 (shapeCast S2000x256 x0 shapeCasts_S2000x256_S2000x256) bitsLt_bf16_f32) (truncf .bf16 x2 bitsLt_bf16_f32)
          (constant S2000x16 .f32 0x00000000#32))
        (matmul (F := Ideal) dot_S2000x256_S256x16_S2000x16_1_0_0_1_n_n none
          (truncf .bf16 (shapeCast S2000x256 x1 shapeCasts_S2000x256_S2000x256) bitsLt_bf16_f32) (truncf .bf16 x3 bitsLt_bf16_f32)
          (constant S2000x16 .f32 0x00000000#32)))
      (broadcastTo S2000x16 (shapeCast S1x16 x4 shapeCasts_S1x16_S1x16) broadcasts_S1x16_S2000x16) (ix2 p j)
      = ((∑ k : Fin 256, x0 (ix2 p k) * x2 (ix2 k j)) + ∑ k : Fin 256, x1 (ix2 p k) * x3 (ix2 k j)) + x4 (ix2 (0 : Fin 1) j) := by
  rw [addf_apply, addf_apply, matmul_at, matmul_at, row_bcast_at, shapeCast_self, shapeCast_self, shapeCast_self]
  rfl

/-- The body's stored value at entry (p, q) of the block, from the loaded blocks: the log-softmax of row p's logits. -/
theorem pay_apply (x0 x1 : Vec Ideal S2000x256 .f32) (x2 x3 : Vec Ideal S256x16 .f32) (x4 : Vec Ideal S1x16 .f32)
    (p : Fin 2000) (q : Fin 16) :
    k1_pay1 (F := Ideal) x0 x1 x2 x3 x4 (ix2 p q)
      = logSoftmaxAt (fun j : Fin 16 => ((∑ k : Fin 256, x0 (ix2 p k) * x2 (ix2 k j)) + ∑ k : Fin 256, x1 (ix2 p k) * x3 (ix2 k j)) + x4 (ix2 (0 : Fin 1) j)) q := by
  unfold k1_pay1
  refine (logSoftmax_block _ p q).trans ?_
  exact congrArg (fun z : Fin 16 → EReal => logSoftmaxAt z q) (funext fun j => logits_at x0 x1 x2 x3 x4 p j)

/-! ## From the 25 blocks to the array -/

theorem zero_off : (![0, 0] : Fin 2 → Nat) = fun _ => 0 := funext fun a => by fin_cases a <;> rfl

/-- The windows' block indices over the grid: the two row-blocked inputs and the output sit at block (t, 0), the two
    weight matrices and the bias row at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the first input's block at point t is row 2000·t + p of its array. -/
theorem blk0_at (c : Dev nD) (t : Fin cfg1.N) (p : Fin 2000) (k : Fin 256) (r : Fin 50000) (hr : r.val = 2000 * t.val + p.val) :
    (iblk1 V c 0 t : Vec Ideal S2000x256 .f32) (ix2 p k) = (V c main_v38 : S50000x256.Idx → Elt Ideal .f32) (ix2 r k) := by
  obtain ⟨e0, e1, -⟩ := block_index t
  show (V c main_v38 : S50000x256.Idx → Elt Ideal .f32) (((cfg1.win 0).blk t).view.emb (ix2 p k)) = _
  refine congrArg _ (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Row p of the second input's block at point t is row 2000·t + p of its array. -/
theorem blk1_at (c : Dev nD) (t : Fin cfg1.N) (p : Fin 2000) (k : Fin 256) (r : Fin 50000) (hr : r.val = 2000 * t.val + p.val) :
    (iblk1 V c 1 t : Vec Ideal S2000x256 .f32) (ix2 p k) = (V c main_v25 : S50000x256.Idx → Elt Ideal .f32) (ix2 r k) := by
  obtain ⟨-, -, e0, e1, -⟩ := block_index t
  show (V c main_v25 : S50000x256.Idx → Elt Ideal .f32) (((cfg1.win 1).blk t).view.emb (ix2 p k)) = _
  refine congrArg _ (funext fun a => Fin.ext ?_)
  match a with
  | ⟨0, _⟩ => show win1_1.index t (0 : Fin 2) * 2000 + 1 * p.val = r.val; omega
  | ⟨1, _⟩ => show win1_1.index t (1 : Fin 2) * 256 + 1 * k.val = k.val; omega

/-- The two weight matrices and the bias row are whole at every point. -/
theorem blk2_at (c : Dev nD) (t : Fin cfg1.N) (k : Fin 256) (j : Fin 16) :
    (iblk1 V c 2 t : Vec Ideal S256x16 .f32) (ix2 k j) = (V c main_arg5 : S256x16.Idx → Elt Ideal .f32) (ix2 k j) := by
  obtain ⟨-, -, -, -, e0, e1, -⟩ := block_index t
  show (V c main_arg5 : S256x16.Idx → Elt Ideal .f32) (((cfg1.win 2).blk t).view.emb (ix2 k j)) = _
  refine congrArg _ (funext fun a => Fin.ext ?_)
  match a with
  | ⟨0, _⟩ => show win1_2.index t (0 : Fin 2) * 256 + 1 * k.val = k.val; omega
  | ⟨1, _⟩ => show win1_2.index t (1 : Fin 2) * 16 + 1 * j.val = j.val; omega

theorem blk3_at (c : Dev nD) (t : Fin cfg1.N) (k : Fin 256) (j : Fin 16) :
    (iblk1 V c 3 t : Vec Ideal S256x16 .f32) (ix2 k j) = (V c main_arg6 : S256x16.Idx → Elt Ideal .f32) (ix2 k j) := by
  obtain ⟨-, -, -, -, -, -, e0, e1, -⟩ := block_index t
  show (V c main_arg6 : S256x16.Idx → Elt Ideal .f32) (((cfg1.win 3).blk t).view.emb (ix2 k j)) = _
  refine congrArg _ (funext fun a => Fin.ext ?_)
  match a with
  | ⟨0, _⟩ => show win1_3.index t (0 : Fin 2) * 256 + 1 * k.val = k.val; omega
  | ⟨1, _⟩ => show win1_3.index t (1 : Fin 2) * 16 + 1 * j.val = j.val; omega

theorem blk4_at (c : Dev nD) (t : Fin cfg1.N) (j : Fin 16) :
    (iblk1 V c 4 t : Vec Ideal S1x16 .f32) (ix2 (0 : Fin 1) j) = (V c main_v39 : S1x16.Idx → Elt Ideal .f32) (ix2 (0 : Fin 1) j) := by
  obtain ⟨-, -, -, -, -, -, -, -, e0, e1, -⟩ := block_index t
  show (V c main_v39 : S1x16.Idx → Elt Ideal .f32) (((cfg1.win 4).blk t).view.emb (ix2 (0 : Fin 1) j)) = _
  refine congrArg _ (funext fun a => Fin.ext ?_)
  match a with
  | ⟨0, _⟩ => show win1_4.index t (0 : Fin 2) * 1 + 1 * 0 = 0; omega
  | ⟨1, _⟩ => show win1_4.index t (1 : Fin 2) * 16 + 1 * j.val = j.val; omega

/-- What point t writes back is block t of the second layer of the whole arrays. -/
theorem flushed_eq (c : Dev nD) (t : Fin cfg1.N) :
    (dat1 (F := Ideal) V c).flushed 5 t = ((cfg1.win 5).blk t).view.read (Elt Ideal)
      (layer2 (V c main_v38) (V c main_v25) (V c main_arg5) (V c main_arg6) (V c main_v39)) := by
  show (cfg1.win 5).cut (grid1.coords t) ((dat1 (F := Ideal) V c).after 5 t) = _
  rw [after1_5]
  unfold out1_5
  rw [View.canon_unit_zero zero_off]
  simp only [View.ld_unit_zero (S := S2000x256) zero_off, View.ld_unit_zero (S := S256x16) zero_off,
    View.ld_unit_zero (S := S1x16) zero_off]
  funext j
  obtain ⟨p, q, rfl⟩ : ∃ (p : Fin 2000) (q : Fin 16), j = ix2 p q := ⟨j 0, j 1, eq_ix2 j⟩
  have ht : t.val < 25 := lt_of_lt_of_eq t.isLt N_1
  have hb : 2000 * t.val + p.val < 50000 := by omega
  obtain ⟨-, -, -, -, -, -, -, -, -, -, e0, e1⟩ := block_index t
  have hr : ((cfg1.win 5).blk t).view.emb (ix2 p q) = ix2 (⟨2000 * t.val + p.val, hb⟩ : Fin 50000) q := by
    funext a; apply Fin.ext
    match a with
    | ⟨0, _⟩ => show win1_5.index t (0 : Fin 2) * 2000 + 1 * p.val = 2000 * t.val + p.val; omega
    | ⟨1, _⟩ => show win1_5.index t (1 : Fin 2) * 16 + 1 * q.val = q.val; omega
  show k1_pay1 (F := Ideal) (iblk1 V c 0 t) (iblk1 V c 1 t) (iblk1 V c 2 t) (iblk1 V c 3 t) (iblk1 V c 4 t) (ix2 p q)
      = layer2 (V c main_v38) (V c main_v25) (V c main_arg5) (V c main_arg6) (V c main_v39) (((cfg1.win 5).blk t).view.emb (ix2 p q))
  rw [hr]
  refine (pay_apply _ _ _ _ _ p q).trans ?_
  show _ = logSoftmaxAt (logitAt (V c main_v38) (V c main_v25) (V c main_arg5) (V c main_arg6) (V c main_v39)
      (⟨2000 * t.val + p.val, hb⟩ : Fin 50000)) q
  refine congrArg (fun z : Fin 16 → EReal => logSoftmaxAt z q) (funext fun j => ?_)
  unfold logitAt
  rw [blk4_at V c t j]
  refine congrArg₂ (fun a b : EReal => a + b + (V c main_v39 : S1x16.Idx → Elt Ideal .f32) (ix2 (0 : Fin 1) j)) ?_ ?_
  · exact Finset.sum_congr rfl fun k _ => by rw [blk0_at V c t p k ⟨2000 * t.val + p.val, hb⟩ rfl, blk2_at V c t k j]
  · exact Finset.sum_congr rfl fun k _ => by rw [blk1_at V c t p k ⟨2000 * t.val + p.val, hb⟩ rfl, blk3_at V c t k j]

/-- An index of the output array is in point t's block iff each coordinate is in the block's range on its axis. -/
theorem mem_blk (t : Fin cfg1.N) (i : S50000x16.Idx) :
    i ∈ ((cfg1.win 5).blk t).view.set ↔ ∀ a : Fin 2, win1_5.index t a * S2000x16.size a ≤ (i a).val ∧ (i a).val < win1_5.index t a * S2000x16.size a + S2000x16.size a := by
  show i ∈ ((View.whole main_v40).slice (win1_5.rect t)).set ↔ _
  rw [View.set_slice_whole, Rect.mem_set_unit]
  exact Iff.rfl

/-- The output array after region 1, whatever contents `V` the region is entered with: the second layer of the
    arrays behind its five input windows. -/
theorem arr (c : Dev nD) :
    (dat1 (F := Ideal) V c).arrAt 5 cfg1.N
      = layer2 (V c main_v38) (V c main_v25) (V c main_arg5) (V c main_arg6) (V c main_v39) :=
  (dat1 (F := Ideal) V c).arrAt_eq_of_cover 5 (layer2 (V c main_v38) (V c main_v25) (V c main_arg5) (V c main_arg6) (V c main_v39))
    (fun t _ => flushed_eq V c t) fun i => by
      have hi0 : (i 0).val < 50000 := (i 0).isLt
      have hi1 : (i 1).val < 16 := (i 1).isLt
      refine ⟨⟨(i 0).val / 2000, by rw [show cfg1.N = 25 from N_1]; omega⟩, flush1_5 _, ?_⟩
      obtain ⟨-, -, -, -, -, -, -, -, -, -, e0, e1⟩ := block_index ⟨(i 0).val / 2000, by rw [show cfg1.N = 25 from N_1]; omega⟩
      rw [mem_blk]
      intro a
      match a with
      | ⟨0, _⟩ =>
        show win1_5.index ⟨(i 0).val / 2000, _⟩ (0 : Fin 2) * 2000 ≤ (i 0).val ∧ (i 0).val < win1_5.index ⟨(i 0).val / 2000, _⟩ (0 : Fin 2) * 2000 + 2000
        have e0' : win1_5.index ⟨(i 0).val / 2000, _⟩ (0 : Fin 2) = (i 0).val / 2000 := e0
        omega
      | ⟨1, _⟩ =>
        show win1_5.index ⟨(i 0).val / 2000, _⟩ (1 : Fin 2) * 16 ≤ (i 1).val ∧ (i 1).val < win1_5.index ⟨(i 0).val / 2000, _⟩ (1 : Fin 2) * 16 + 16
        omega

end Cert.KernelIdeal.Reg1

end
-- ==== Proof.KernelValue.lean ====
/-
  The kernel's result is `Spec.output` of its arguments.

  The run ends with the result buffer holding what region 1's write-backs leave: the second layer of the arrays region 1
  finds. Of those, the host laid out the scaled aggregate of region 0's output and the bias row; region 0's output is
  the first layer of the arrays region 0 finds, which the host laid out from the arguments. Put together this is the
  network of `Spec`, layer by layer.
-/
import proofs.«108324_j39238821216833_1_alg».proof.Proof.Spec
import proofs.«108324_j39238821216833_1_alg».proof.Proof.KernelRun
import proofs.«108324_j39238821216833_1_alg».proof.Proof.HostReads
import proofs.«108324_j39238821216833_1_alg».proof.Proof.Region0
import proofs.«108324_j39238821216833_1_alg».proof.Proof.Region1

set_option maxRecDepth 16384

noncomputable section

namespace Cert.KernelIdeal.KValue

open Cert.KernelIdeal Cert.KernelIdeal.Gen Cert.KernelIdeal.HostV Cert.Spec
open Idealize.ShloMosaic Idealize.ShloMosaic.TcCoe Idealize.SL.Sem

variable (m : (ℓ : Loc nD τ sig) → Buf (Elt Ideal) ℓ) (ρ : Dev nD → PrngReg)

/-- Region 0's output array is the hidden layer of the arguments. -/
theorem hidden_eq (c : Dev nD) :
    W4 m ρ c (Proc.devRef .tc main_v25) = hidden (ax m c) (ae m c) (aW1l m c) (aW1r m c) (ab1 m c) := by
  rw [W4_v25, Reg0.arr (V3 m ρ) c]
  show layer1 (W3 m ρ c (Proc.devRef .tc main_v23)) (W3 m ρ c (Proc.devRef .tc main_arg0))
    (W3 m ρ c (Proc.devRef .tc main_arg2)) (W3 m ρ c (Proc.devRef .tc main_arg3)) (W3 m ρ c (Proc.devRef .tc main_v24)) = _
  rw [W3_v23, W3_arg0, W3_arg2, W3_arg3, W3_v24]
  rfl

/-- The result buffer after the run is the network's output of the arguments. -/
theorem result_eq (c : Dev nD) :
    W6 m ρ c (Proc.devRef .tc main_v40)
      = output (ax m c) (ae m c) (aW1l m c) (aW1r m c) (ab1 m c) (aW2l m c) (aW2r m c) (ab2 m c) := by
  refine (W6_arr m ρ c 5).trans ?_
  rw [Reg1.arr (V5 m ρ) c]
  show layer2 (W5 m ρ c (Proc.devRef .tc main_v38)) (W5 m ρ c (Proc.devRef .tc main_v25))
    (W5 m ρ c (Proc.devRef .tc main_arg5)) (W5 m ρ c (Proc.devRef .tc main_arg6)) (W5 m ρ c (Proc.devRef .tc main_v39)) = _
  rw [W5_v38, W5_v25, W5_arg5, W5_arg6, W5_v39, hidden_eq]
  rfl

/-- Every weakly fair execution of the kernel's @main terminates, nothing faulting, with the result at the network's
    output of the arguments and the arguments unchanged. -/
theorem run : θ_run defs (onTc (τ := τ) (main (F := Ideal))) ⟨m, fun _ => 0, ρ⟩ (fun r => ∀ c : Dev nD,
      r.2.mem ((c.tc : Thread nD τ).loc main_v40)
        = output (ax m c) (ae m c) (aW1l m c) (aW1r m c) (ab1 m c) (aW2l m c) (aW2r m c) (ab2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.GenV.run_result m ρ)

end Cert.KernelIdeal.KValue

end
-- ==== Proof.RefBridge.lean ====
/-
  The reference's two dense layers are `Spec.layer1` and `Spec.layer2`.

  The reference divides each aggregated row by the clipped degree `d` where the kernel's layout multiplies it by `1 / d`:
  `d = max 1 deg ≥ 1` is never zero, and off zero the quotient `a / d` is `a · d⁻¹ = a · (1 · d⁻¹)` on every extended
  real. It adds the bias before the second product where the kernel adds it after: addition of extended reals is
  commutative and associative. Its log-softmax takes `max (−∞) (row maximum)`, which is the row maximum, the fold of
  `max` from `−∞` being at least `−∞`.
-/
import proofs.«108324_j39238821216833_1_alg».proof.Proof.Spec
import proofs.«108324_j39238821216833_1_alg».proof.Proof.RefRead
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.RefBridge

open Cert.KernelIdeal Cert.Spec Cert.ReferenceIdeal.ReadP
open Idealize.ShloMosaic Idealize.ShloMosaic.TcCoe Idealize.ShloMosaic.ValueIdx

/-- The float pattern of one denotes the extended real one. -/
theorem ofBits_one : Ideal.ofBits .f32 0x3F800000#32 = 1 := by
  simp [Ideal.ofBits, Ideal.ieee, -EReal.coe_mul]; norm_num

/-- Multiplying by the reciprocal of a value that is at least one is dividing by it, on every extended real. -/
theorem mul_inv_clip (a y : EReal) :
    a * Ideal.div (Ideal.ofBits .f32 0x3F800000#32) (max (Ideal.ofBits .f32 0x3F800000#32) y)
      = Ideal.div a (max (Ideal.ofBits .f32 0x3F800000#32) y) := by
  have hd : max (Ideal.ofBits .f32 0x3F800000#32) y ≠ 0 := by
    rw [ofBits_one]
    exact (lt_of_lt_of_le zero_lt_one (le_max_left 1 y)).ne'
  unfold Ideal.div
  rw [if_neg hd, if_neg hd, ofBits_one, one_mul]

/-! ## The host-form operands of the dense layers, read at an index -/

section HostForm
open Cert.KernelIdeal.Facts₀

/-- A vector over the nodes laid along 128 columns reads, at row r, the vector's entry r. -/
theorem cols128_apply (v : FVec Ideal S50000 .f32) (r : Fin 50000) (k : Fin 128) :
    cols128 v (ix2 r k) = v (ix1 r) := by
  unfold cols128
  refine (broadcastInDim_apply _ bcast_S50000x1_S50000x128_0_1 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])).trans ?_
  exact broadcastInDim_apply _ bcast_S50000_S50000x1_0 v (ix2 r (0 : Fin 1)) (ix1 r) (fun a => match a with
    | ⟨0, _⟩ => by show r.val = if (50000 : Nat) = 1 then 0 else r.val; rw [if_neg (by decide)])

/-- The same along 256 columns. -/
theorem cols256_apply (v : FVec Ideal S50000 .f32) (r : Fin 50000) (k : Fin 256) :
    cols256 v (ix2 r k) = v (ix1 r) := by
  unfold cols256
  refine (broadcastInDim_apply _ bcast_S50000x1_S50000x256_0_1 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])).trans ?_
  exact broadcastInDim_apply _ bcast_S50000_S50000x1_0 v (ix2 r (0 : Fin 1)) (ix1 r) (fun a => match a with
    | ⟨0, _⟩ => by show r.val = if (50000 : Nat) = 1 then 0 else r.val; rw [if_neg (by decide)])

/-- The reciprocal vector at an entry is the quotient of one by the entry. -/
theorem invDeg_apply (d : FVec Ideal S50000 .f32) (i : S50000.Idx) :
    invDeg d i = Ideal.div (Ideal.ofBits .f32 0x3F800000#32) (d i) := by
  unfold invDeg
  show Ideal.div (broadcastInDim S50000 ![] bcast_S_S50000 (constant (F := Ideal) S_ .f32 0x3F800000#32) i) (d i) = _
  rw [broadcastInDim_apply _ bcast_S_S50000 _ i ix0 (fun a => a.elim0)]
  rfl

/-- A 256-vector as a one-row matrix reads the vector along its row. -/
theorem row256_apply (b : FVec Ideal S256 .f32) (j : Fin 256) : row256 b (ix2 (0 : Fin 1) j) = b (ix1 j) := by
  unfold row256
  exact shapeCast_apply b shapeCasts_S256_S1x256 (ix2 (0 : Fin 1) j) (ix1 j)
    (by rw [Shape.rowMajor_val_two, Shape.rowMajor_val_one]; show j.val = 0 * 256 + j.val; omega)

/-- A 16-vector as a one-row matrix reads the vector along its row. -/
theorem row16_apply (b : FVec Ideal S16 .f32) (j : Fin 16) : row16 b (ix2 (0 : Fin 1) j) = b (ix1 j) := by
  unfold row16
  exact shapeCast_apply b shapeCasts_S16_S1x16 (ix2 (0 : Fin 1) j) (ix1 j)
    (by rw [Shape.rowMajor_val_two, Shape.rowMajor_val_one]; show j.val = 0 * 16 + j.val; omega)

end HostForm

/-! ## The first layer -/

/-- The reference's clipped degree at a node is the larger of one and its degree. -/
theorem clip1_at (x1 : IVec S2x600000 32) (r : Fin 50000) :
    val_main_v18 (F := Ideal) x1 (ix1 r)
      = max (Ideal.ofBits .f32 0x3F800000#32) (val_main_v17 (F := Ideal) x1 (ix1 r)) := by
  rw [val_main_v18_apply, val_main_call0_v1_apply, val_main_call0_v0_apply, val_main_cst_3_apply]
  rfl

/-- The reference's mean aggregate at (r, k), a quotient by the clipped degree, is the aggregate scaled by the reciprocal. -/
theorem mean1_at (x0 : FVec Ideal S50000x128 .f32) (x1 : IVec S2x600000 32) (r : Fin 50000) (k : Fin 128) :
    val_main_v21 (F := Ideal) x0 x1 (ix2 r k)
      = scale128 (val_main_v13 (F := Ideal) x0 x1) (invDeg (val_main_v18 (F := Ideal) x1)) (ix2 r k) := by
  have hi : idx_main_v19 (idx_main_v20 (ix2 r k)) = ix1 r :=
    funext fun a => Fin.ext (by match a with | ⟨0, _⟩ => rfl)
  rw [val_main_v21_apply, val_main_v20_apply, val_main_v19_apply, hi]
  unfold scale128
  rw [mulf_apply, cols128_apply, invDeg_apply, clip1_at]
  exact (mul_inv_clip _ _).symm

/-- The reference's hidden layer is the first dense layer of its own aggregate, scaled by the reciprocal of its clipped degree. -/
theorem layer1_eq (x0 : FVec Ideal S50000x128 .f32) (x1 : IVec S2x600000 32) (x2 x3 : FVec Ideal S128x256 .f32)
    (x4 : FVec Ideal S256 .f32) :
    val_main_v28 (F := Ideal) x0 x1 x2 x3 x4
      = layer1 (scale128 (val_main_v13 (F := Ideal) x0 x1) (invDeg (val_main_v18 (F := Ideal) x1))) x0 x2 x3 (row256 x4) := by
  funext i
  obtain ⟨r, j, rfl⟩ : ∃ (r : Fin 50000) (j : Fin 256), i = ix2 r j := ⟨i 0, i 1, eq_ix2 i⟩
  show _ = layer1At _ x0 x2 x3 (row256 x4) r j
  unfold layer1At
  have hl : ∀ k : Fin 128, lidx_main_v22 (ix2 r j) k = ix2 r k := fun k =>
    funext fun a => Fin.ext (by match a with | ⟨0, _⟩ => rfl | ⟨1, _⟩ => rfl)
  have hr : ∀ k : Fin 128, ridx_main_v22 (ix2 r j) k = ix2 k j := fun k =>
    funext fun a => Fin.ext (by match a with | ⟨0, _⟩ => rfl | ⟨1, _⟩ => rfl)
  have hl' : ∀ k : Fin 128, lidx_main_v26 (ix2 r j) k = ix2 r k := fun k =>
    funext fun a => Fin.ext (by match a with | ⟨0, _⟩ => rfl | ⟨1, _⟩ => rfl)
  have hr' : ∀ k : Fin 128, ridx_main_v26 (ix2 r j) k = ix2 k j := fun k =>
    funext fun a => Fin.ext (by match a with | ⟨0, _⟩ => rfl | ⟨1, _⟩ => rfl)
  have hb : idx_main_v23 (idx_main_v24 (ix2 r j)) = ix1 j :=
    funext fun a => Fin.ext (by match a with | ⟨0, _⟩ => rfl)
  rw [val_main_v28_apply, val_main_v27_apply, val_main_v25_apply, val_main_v22_apply, val_main_v26_apply,
    val_main_v24_apply, val_main_v23_apply, val_main_call1_v0_apply, val_main_call1_cst_apply, hb, row256_apply]
  have e1 : (∑ k : Fin 128, val_main_v21 (F := Ideal) x0 x1 (lidx_main_v22 (ix2 r j) k) * x2 (ridx_main_v22 (ix2 r j) k))
      = ∑ k : Fin 128, scale128 (val_main_v13 (F := Ideal) x0 x1) (invDeg (val_main_v18 (F := Ideal) x1)) (ix2 r k)
          * x2 (ix2 k j) :=
    Finset.sum_congr rfl fun k _ => by rw [hl, hr, mean1_at]
  have e2 : (∑ k : Fin 128, x0 (lidx_main_v26 (ix2 r j) k) * x3 (ridx_main_v26 (ix2 r j) k))
      = ∑ k : Fin 128, x0 (ix2 r k) * x3 (ix2 k j) :=
    Finset.sum_congr rfl fun k _ => by rw [hl', hr']
  rw [e1, e2]
  rw [Ideal.maximumf_def, Ideal.addf_def, Ideal.addf_def, Ideal.ofBits_def, add_right_comm]

/-! ## The second layer -/

/-- A maximum-reduce of a 16-column matrix along its rows, read at row r: the fold of the maximum from the initial value
    over the row's 16 entries. -/
theorem rowFold_at (x : FVec Ideal S50000x16 .f32) (z : Fin 16 → EReal) (init : FVec Ideal S_ .f32)
    (h' : S50000x16.ReducesTo [1] S50000) (hu : 0 < S_.numel) (r : Fin 50000) (hz : ∀ k : Fin 16, x (ix2 r k) = z k) :
    Host.reduce (FloatOps.maximumf (F := Ideal) (φ := .f32)) x init h' hu (ix1 r)
      = (Finset.univ : Finset (Fin 16)).fold max (init (Shape.Idx.first hu)) z := by
  have hred : S50000x16.Reduces [1] S50000 := by decide
  refine (Host.reduce_eq_fold_single (max : EReal → EReal → EReal) x init h' hred hu (ix1 r)).trans ?_
  have hf : (x ∘ hred.lift (ix1 r)) = z := funext fun k => by
    have hk : hred.lift (ix1 r) k = ix2 r (⟨k.val, k.isLt⟩ : Fin 16) :=
      funext fun c => Fin.ext (by match c with | ⟨0, _⟩ => rfl | ⟨1, _⟩ => rfl)
    show x (hred.lift (ix1 r) k) = _
    rw [hk]
    exact hz ⟨k.val, k.isLt⟩
  rw [hf]
  rfl

section Layer2
variable (x0 : FVec Ideal S50000x128 .f32) (x1 : IVec S2x600000 32) (x2 x3 : FVec Ideal S128x256 .f32)
  (x4 : FVec Ideal S256 .f32) (x5 x6 : FVec Ideal S256x16 .f32) (x7 : FVec Ideal S16 .f32)

/-- The reference's second clipped degree at a node is the larger of one and its degree. -/
theorem clip2_at (r : Fin 50000) :
    val_main_v43 (F := Ideal) x1 (ix1 r)
      = max (Ideal.ofBits .f32 0x3F800000#32) (val_main_v42 (F := Ideal) x1 (ix1 r)) := by
  rw [val_main_v43_apply, val_main_call2_v1_apply, val_main_call2_v0_apply, val_main_cst_9_apply]
  rfl

/-- The reference's second mean aggregate at (r, k) is the aggregate scaled by the reciprocal of the clipped degree. -/
theorem mean2_at (r : Fin 50000) (k : Fin 256) :
    val_main_v46 (F := Ideal) x0 x1 x2 x3 x4 (ix2 r k)
      = scale256 (val_main_v38 (F := Ideal) x0 x1 x2 x3 x4) (invDeg (val_main_v43 (F := Ideal) x1)) (ix2 r k) := by
  have hi : idx_main_v44 (idx_main_v45 (ix2 r k)) = ix1 r :=
    funext fun a => Fin.ext (by match a with | ⟨0, _⟩ => rfl)
  rw [val_main_v46_apply, val_main_v45_apply, val_main_v44_apply, hi]
  unfold scale256
  rw [mulf_apply, cols256_apply, invDeg_apply, clip2_at]
  exact (mul_inv_clip _ _).symm

/-- The reference's logit at (r, j) is the second dense layer's, the bias moved past the second product. -/
theorem logit_at (r : Fin 50000) (j : Fin 16) :
    val_main_v52 (F := Ideal) x0 x1 x2 x3 x4 x5 x6 x7 (ix2 r j)
      = logitAt (scale256 (val_main_v38 (F := Ideal) x0 x1 x2 x3 x4) (invDeg (val_main_v43 (F := Ideal) x1)))
          (val_main_v28 (F := Ideal) x0 x1 x2 x3 x4) x5 x6 (row16 x7) r j := by
  unfold logitAt
  have hl : ∀ k : Fin 256, lidx_main_v47 (ix2 r j) k = ix2 r k := fun k =>
    funext fun a => Fin.ext (by match a with | ⟨0, _⟩ => rfl | ⟨1, _⟩ => rfl)
  have hr : ∀ k : Fin 256, ridx_main_v47 (ix2 r j) k = ix2 k j := fun k =>
    funext fun a => Fin.ext (by match a with | ⟨0, _⟩ => rfl | ⟨1, _⟩ => rfl)
  have hl' : ∀ k : Fin 256, lidx_main_v51 (ix2 r j) k = ix2 r k := fun k =>
    funext fun a => Fin.ext (by match a with | ⟨0, _⟩ => rfl | ⟨1, _⟩ => rfl)
  have hr' : ∀ k : Fin 256, ridx_main_v51 (ix2 r j) k = ix2 k j := fun k =>
    funext fun a => Fin.ext (by match a with | ⟨0, _⟩ => rfl | ⟨1, _⟩ => rfl)
  have hb : idx_main_v48 (idx_main_v49 (ix2 r j)) = ix1 j :=
    funext fun a => Fin.ext (by match a with | ⟨0, _⟩ => rfl)
  rw [val_main_v52_apply, val_main_v50_apply, val_main_v47_apply, val_main_v51_apply, val_main_v49_apply,
    val_main_v48_apply, hb, row16_apply]
  have e1 : (∑ k : Fin 256, val_main_v46 (F := Ideal) x0 x1 x2 x3 x4 (lidx_main_v47 (ix2 r j) k) * x5 (ridx_main_v47 (ix2 r j) k))
      = ∑ k : Fin 256, scale256 (val_main_v38 (F := Ideal) x0 x1 x2 x3 x4) (invDeg (val_main_v43 (F := Ideal) x1)) (ix2 r k)
          * x5 (ix2 k j) :=
    Finset.sum_congr rfl fun k _ => by rw [hl, hr, mean2_at]
  have e2 : (∑ k : Fin 256, val_main_v28 (F := Ideal) x0 x1 x2 x3 x4 (lidx_main_v51 (ix2 r j) k) * x6 (ridx_main_v51 (ix2 r j) k))
      = ∑ k : Fin 256, val_main_v28 (F := Ideal) x0 x1 x2 x3 x4 (ix2 r k) * x6 (ix2 k j) :=
    Finset.sum_congr rfl fun k _ => by rw [hl', hr']
  rw [e1, e2]
  rw [Ideal.addf_def, Ideal.addf_def, add_right_comm]

/-- The reference's row maximum: the larger of minus infinity and the fold of the maximum from minus infinity over the
    row, which is that fold. -/
theorem rowMax_at (r : Fin 50000) :
    val_main_call3_v2 (F := Ideal) x0 x1 x2 x3 x4 x5 x6 x7 (ix1 r)
      = rowMax (logitAt (scale256 (val_main_v38 (F := Ideal) x0 x1 x2 x3 x4) (invDeg (val_main_v43 (F := Ideal) x1)))
          (val_main_v28 (F := Ideal) x0 x1 x2 x3 x4) x5 x6 (row16 x7) r) := by
  have h0 : val_main_call3_v0 (F := Ideal) x0 x1 x2 x3 x4 x5 x6 x7 (ix1 r)
      = rowMax (logitAt (scale256 (val_main_v38 (F := Ideal) x0 x1 x2 x3 x4) (invDeg (val_main_v43 (F := Ideal) x1)))
          (val_main_v28 (F := Ideal) x0 x1 x2 x3 x4) x5 x6 (row16 x7) r) := by
    unfold val_main_call3_v0 rowMax
    refine (rowFold_at _ _ _ _ _ r (fun k => logit_at x0 x1 x2 x3 x4 x5 x6 x7 r k)).trans ?_
    rw [val_main_call3_cst_apply, Ideal.ofBits_def]
  rw [val_main_call3_v2_apply, val_main_call3_v1_apply, val_main_call3_cst_0_apply, h0]
  exact max_eq_right (Finset.le_fold_max _ |>.mpr (Or.inl le_rfl))

/-- The reference's logit at (r, j) less its row's maximum. -/
theorem shifted_at (r : Fin 50000) (j : Fin 16) :
    val_main_call3_v5 (F := Ideal) x0 x1 x2 x3 x4 x5 x6 x7 (ix2 r j)
      = logitAt (scale256 (val_main_v38 (F := Ideal) x0 x1 x2 x3 x4) (invDeg (val_main_v43 (F := Ideal) x1)))
          (val_main_v28 (F := Ideal) x0 x1 x2 x3 x4) x5 x6 (row16 x7) r j
        - rowMax (logitAt (scale256 (val_main_v38 (F := Ideal) x0 x1 x2 x3 x4) (invDeg (val_main_v43 (F := Ideal) x1)))
          (val_main_v28 (F := Ideal) x0 x1 x2 x3 x4) x5 x6 (row16 x7) r) := by
  have hi : idx_main_call3_v3 (idx_main_call3_v4 (ix2 r j)) = ix1 r :=
    funext fun a => Fin.ext (by match a with | ⟨0, _⟩ => rfl)
  rw [val_main_call3_v5_apply, val_main_call3_v4_apply, val_main_call3_v3_apply, hi, rowMax_at, logit_at]
  exact Ideal.subf_def _ _

end Layer2

/-- The reference's result is the second dense layer, with its log-softmax, of its own second aggregate, scaled likewise,
    and its hidden layer. -/
theorem layer2_eq (x0 : FVec Ideal S50000x128 .f32) (x1 : IVec S2x600000 32) (x2 x3 : FVec Ideal S128x256 .f32)
    (x4 : FVec Ideal S256 .f32) (x5 x6 : FVec Ideal S256x16 .f32) (x7 : FVec Ideal S16 .f32) :
    val_main_v53 (F := Ideal) x0 x1 x2 x3 x4 x5 x6 x7
      = layer2 (scale256 (val_main_v38 (F := Ideal) x0 x1 x2 x3 x4) (invDeg (val_main_v43 (F := Ideal) x1)))
          (val_main_v28 (F := Ideal) x0 x1 x2 x3 x4) x5 x6 (row16 x7) := by
  funext i
  obtain ⟨r, j, rfl⟩ : ∃ (r : Fin 50000) (j : Fin 16), i = ix2 r j := ⟨i 0, i 1, eq_ix2 i⟩
  show _ = logSoftmaxAt (logitAt (scale256 (val_main_v38 (F := Ideal) x0 x1 x2 x3 x4) (invDeg (val_main_v43 (F := Ideal) x1)))
          (val_main_v28 (F := Ideal) x0 x1 x2 x3 x4) x5 x6 (row16 x7) r) j
  unfold logSoftmaxAt
  have hi : idx_main_call3_v8 (idx_main_call3_v10 (ix2 r j)) = ix1 r :=
    funext fun a => Fin.ext (by match a with | ⟨0, _⟩ => rfl)
  have hk : ∀ k : Fin 16, idx_main_call3_v7 (ix1 r) k = ix2 r k := fun k =>
    funext fun a => Fin.ext (by match a with | ⟨0, _⟩ => rfl | ⟨1, _⟩ => rfl)
  have es : (∑ k : Fin 16, val_main_call3_v6 (F := Ideal) x0 x1 x2 x3 x4 x5 x6 x7 (idx_main_call3_v7 (ix1 r) k))
      = ∑ l : Fin 16, Ideal.exp (logitAt (scale256 (val_main_v38 (F := Ideal) x0 x1 x2 x3 x4) (invDeg (val_main_v43 (F := Ideal) x1)))
          (val_main_v28 (F := Ideal) x0 x1 x2 x3 x4) x5 x6 (row16 x7) r l
          - rowMax (logitAt (scale256 (val_main_v38 (F := Ideal) x0 x1 x2 x3 x4) (invDeg (val_main_v43 (F := Ideal) x1)))
          (val_main_v28 (F := Ideal) x0 x1 x2 x3 x4) x5 x6 (row16 x7) r)) :=
    Finset.sum_congr rfl fun k _ => by
      rw [hk, val_main_call3_v6_apply, shifted_at]
      exact Ideal.hostUnary_exp_def _
  rw [val_main_v53_apply, val_main_call3_v10_apply, val_main_call3_v9_apply, val_main_call3_v8_apply, hi,
    val_main_call3_v7_apply, val_main_call3_cst_1_apply, shifted_at, es]
  rw [Ideal.subf_def, Ideal.hostUnary_log_def, Ideal.ofBits_def, Ideal.ofBits_zero_f32, zero_add]

end Cert.RefBridge

end
-- ==== Proof.RefValue.lean ====
/-
  The reference's result is `Spec.output` of its arguments.

  Its gathers, scatter-adds and clipped degree are the same host operations as the ones `Spec` names (the same
  operations at the same dimension numbers); its two dense layers are `Spec.layer1` and `Spec.layer2` of its own
  scaled aggregates (`RefBridge`). Put together, its result is the same network.
-/
import proofs.«108324_j39238821216833_1_alg».proof.Proof.Spec
import proofs.«108324_j39238821216833_1_alg».proof.Proof.RefRun
import proofs.«108324_j39238821216833_1_alg».proof.Proof.RefRead
import proofs.«108324_j39238821216833_1_alg».proof.Proof.RefBridge

set_option maxRecDepth 16384

noncomputable section

namespace Cert.ReferenceIdeal.RefValue

open Cert.Spec Cert.ReferenceIdeal.ReadP
open Idealize.ShloMosaic Idealize.ShloMosaic.TcCoe Idealize.SL.Sem

section
open Cert.KernelIdeal

variable (x0 : FVec Ideal S50000x128 .f32) (x1 : IVec S2x600000 32) (x2 x3 : FVec Ideal S128x256 .f32)
  (x4 : FVec Ideal S256 .f32) (x5 x6 : FVec Ideal S256x16 .f32) (x7 : FVec Ideal S16 .f32)

/-- The reference's first aggregate is the sum of the gathered rows of `x` into the destinations. -/
theorem agg1_eq : val_main_v13 (F := Ideal) x0 x1 = agg128 x0 x1 := rfl

/-- The reference's clipped degree, where it first computes it. -/
theorem clip1_eq : val_main_v18 (F := Ideal) x1 = clipOne (deg x1) := rfl

/-- The reference's clipped degree, where it computes it again. -/
theorem clip2_eq : val_main_v43 (F := Ideal) x1 = clipOne (deg x1) := rfl

/-- The reference's second aggregate is the sum of the gathered rows of its hidden layer into the destinations. -/
theorem agg2_eq : val_main_v38 (F := Ideal) x0 x1 x2 x3 x4 = agg256 (val_main_v28 (F := Ideal) x0 x1 x2 x3 x4) x1 := rfl

/-- The reference's hidden layer is the network's. -/
theorem hidden_eq : val_main_v28 (F := Ideal) x0 x1 x2 x3 x4 = hidden x0 x1 x2 x3 x4 := by
  rw [Cert.RefBridge.layer1_eq, agg1_eq, clip1_eq]
  rfl

/-- The reference's result is the network's output. -/
theorem output_eq : val_main_v53 (F := Ideal) x0 x1 x2 x3 x4 x5 x6 x7 = output x0 x1 x2 x3 x4 x5 x6 x7 := by
  rw [Cert.RefBridge.layer2_eq, agg2_eq, clip2_eq, hidden_eq]
  rfl

end

open Cert.ReferenceIdeal

/-- The term the reference's run ends at is the network's output of the launch memory's arguments. -/
theorem result_eq (m : (ℓ : Loc nD τ sig) → Buf (Elt Ideal) ℓ) (c : Dev nD) :
    Cert.ReferenceIdeal.ValueP.res_main_v53 m c
      = output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v53_eq (F := Ideal) m c).trans (output_eq _ _ _ _ _ _ _ _)

end Cert.ReferenceIdeal.RefValue

end
-- ==== Proof.lean ====
/-
  The certificate of a two-layer mean-aggregation graph network: the kernel's two dense layers (each a Pallas call:
  two matrix products, a bias, then a rectifier or a row-wise log-softmax) around host-side gathers and scatter-adds,
  against the jnp reference of the same network.

  At the ideal values both programs compute `Spec.output` of the arguments. They differ in three places, none of which
  changes an extended real: the kernel scales each aggregated row by `1 / d` where the reference divides it by
  `d = max 1 deg`, and `a · (1 · d⁻¹) = a · d⁻¹` since `d ≥ 1` is not zero; the kernel adds the bias after the second
  product where the reference adds it before, and addition is commutative and associative; the reference's log-softmax
  takes `max (−∞) ·` of the row maximum, which is the row maximum. The casts to bf16 are the identity, the matrix unit's
  product into a zero accumulator and the host's product are the same sum of products. The precondition (finite
  inputs) is not used: every law above holds on all extended reals.

  The three frames: the kernel's two are the generated frame certificates; the reference's is its run with the result
  dropped. The idealization rewrote nothing, so `preserves` is trivial.
-/
import proofs.«108324_j39238821216833_1_alg».proof.Defs
import proofs.«108324_j39238821216833_1_alg».proof.Proof.Gen.Kernel
import proofs.«108324_j39238821216833_1_alg».proof.Proof.Gen.Kernel.Frame
import proofs.«108324_j39238821216833_1_alg».proof.Proof.Gen.KernelIdeal
import proofs.«108324_j39238821216833_1_alg».proof.Proof.Gen.KernelIdeal.Frame
import proofs.«108324_j39238821216833_1_alg».proof.Proof.Gen.ReferenceIdeal
import proofs.«108324_j39238821216833_1_alg».proof.Proof.Gen.Pre_finite_inputs
import proofs.«108324_j39238821216833_1_alg».proof.Proof.KernelValue
import proofs.«108324_j39238821216833_1_alg».proof.Proof.RefRun
import proofs.«108324_j39238821216833_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the network's output of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
